-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x1 : Shape := ⟨2, ![800000, 1]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S50000x64 .f32) (main_arg1 : FVec F S800000x1 .f32) (main_arg2 : IVec S800000 32) (main_arg3 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_c_2 : IVec S_ 32 := constantI S_ 32 0#32
  let main_v9 : IVec S800000 32 := broadcastInDim S800000 ![] bcast_S_S800000 main_c_2
  let main_v10 : IVec S800000 1 := cmpi .sge main_arg2 main_v9
  let main_c_3 : IVec S_ 1 := constantI S_ 1 1#1
  let main_v11 : IVec S_ 1 := (fun x v => Host.reduce IntOp.andi x v reducesTo_S800000_S_d0 h_S_) main_v10 main_c_3
  let main_v12 : IVec S_ 1 := andi main_v8 main_v11
  let main_c_4 : IVec S_ 32 := constantI S_ 32 50000#32
  let main_v13 : IVec S800000 32 := broadcastInDim S800000 ![] bcast_S_S800000 main_c_4
  let main_v14 : IVec S800000 1 := cmpi .slt main_arg2 main_v13
  let main_c_5 : IVec S_ 1 := constantI S_ 1 1#1
  let main_v15 : IVec S_ 1 := (fun x v => Host.reduce IntOp.andi x v reducesTo_S800000_S_d0 h_S_) main_v14 main_c_5
  fn_part1 (F := F) main_v12 main_v15
-- ==== Kernel.lean ====
abbrev S50000x64 : Shape := ⟨2, ![50000, 64]⟩
abbrev S800000x1 : Shape := ⟨2, ![800000, 1]⟩
abbrev S800000 : Shape := ⟨1, ![800000]⟩
abbrev S64x50000 : Shape := ⟨2, ![64, 50000]⟩
abbrev S_ : Shape := ⟨0, ![]⟩
abbrev S64x51200 : Shape := ⟨2, ![64, 51200]⟩
abbrev S1x800000 : Shape := ⟨2, ![1, 800000]⟩
abbrev S1x1280 : Shape := ⟨2, ![1, 1280]⟩
abbrev S1280x1 : Shape := ⟨2, ![1280, 1]⟩
abbrev S64x1280 : Shape := ⟨2, ![64, 1280]⟩
abbrev S1280x1280 : Shape := ⟨2, ![1280, 1280]⟩

abbrev nBuf : Space → Nat
  | .hbm => 15
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S64x50000, .f32⟩
  | .hbm, ⟨5, _⟩ => ⟨S_, .i32⟩
  | .hbm, ⟨6, _⟩ => ⟨S_, .f32⟩
  | .hbm, ⟨7, _⟩ => ⟨S64x51200, .f32⟩
  | .hbm, ⟨8, _⟩ => ⟨S64x51200, .bf16⟩
  | .hbm, ⟨9, _⟩ => ⟨S1x800000, .i32⟩
  | .hbm, ⟨10, _⟩ => ⟨S1x800000, .f32⟩
  | .hbm, ⟨11, _⟩ => ⟨S800000x1, .i32⟩
  | .hbm, ⟨12, _⟩ => ⟨S64x51200, .f32⟩
  | .hbm, ⟨13, _⟩ => ⟨S64x50000, .f32⟩
  | .hbm, ⟨14, _⟩ => ⟨S50000x64, .f32⟩
  | .local _ .vmem, ⟨0, _⟩ => ⟨S1x1280, .i32⟩
  | .local _ .vmem, ⟨1, _⟩ => ⟨S1x1280, .i32⟩
  | .local _ .vmem, ⟨2, _⟩ => ⟨S1x1280, .f32⟩
  | .local _ .vmem, ⟨3, _⟩ => ⟨S1x1280, .f32⟩
  | .local _ .vmem, ⟨4, _⟩ => ⟨S1280x1, .i32⟩
  | .local _ .vmem, ⟨5, _⟩ => ⟨S1280x1, .i32⟩
  | .local _ .vmem, ⟨6, _⟩ => ⟨S64x51200, .bf16⟩
  | .local _ .vmem, ⟨7, _⟩ => ⟨S64x51200, .f32⟩
  | .local _ .vmem, ⟨8, _⟩ => ⟨S64x1280, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32_8 : BitVec 32 := 0#32
  let c40_i32 : BitVec 32 := 40#32
  let v13 : BitVec 32 := Scalar.addi c0_i32_8 c40_i32
  let c1_i32 : BitVec 32 := 1#32
  ⟨c0_i32_8, v13, c1_i32⟩
def k0_mult1 (k0_t1 : Fin k0_t1_loop.trips) : BitVec 32 :=
  let c0_i32_17 : BitVec 32 := 0#32
  let c0_i32_8 : BitVec 32 := 0#32
  let c1_i32 : BitVec 32 := 1#32
  let arg7 : BitVec 32 := Scf.iv c0_i32_8 c1_i32 k0_t1
  let c1_i32_16 : BitVec 32 := 1#32
  let v19 : BitVec 32 := Scalar.muli arg7 c1_i32_16
  let v20 : BitVec 32 := Scalar.addi c0_i32_17 v19
  let c1280_i32 : BitVec 32 := 1280#32
  let v21 : BitVec 32 := Scalar.muli v20 c1280_i32
  v21
def k0_off1 (k0_t1 : Fin k0_t1_loop.trips) : Fin 2 → Nat :=
  let c0_18 : Index := 0#32
  let c0_i32_17 : BitVec 32 := 0#32
  let c0_i32_8 : BitVec 32 := 0#32
  let c1_i32 : BitVec 32 := 1#32
  let arg7 : BitVec 32 := Scf.iv c0_i32_8 c1_i32 k0_t1
  let c1_i32_16 : BitVec 32 := 1#32
  let v19 : BitVec 32 := Scalar.muli arg7 c1_i32_16
  let v20 : BitVec 32 := Scalar.addi c0_i32_17 v19
  let c1280_i32 : BitVec 32 := 1280#32
  let v21 : BitVec 32 := Scalar.muli v20 c1280_i32
  let v22 : BitVec 32 := v21
  let v32 : Index := Scalar.indexCast v22
  ![0, v32.toNat]
@[reducible] def k0_t2_loop : Scf.Loop 32 :=
  let c0_i32_12 : BitVec 32 := 0#32
  let c40_i32_13 : BitVec 32 := 40#32
  let v18 : BitVec 32 := Scalar.addi c0_i32_12 c40_i32_13
  let c1_i32_14 : BitVec 32 := 1#32
  ⟨c0_i32_12, v18, c1_i32_14⟩
def k0_mult2 (k0_t2 : Fin k0_t2_loop.trips) : BitVec 32 :=
  let c0_i32_17 : BitVec 32 := 0#32
  let c0_i32_12 : BitVec 32 := 0#32
  let c1_i32_14 : BitVec 32 := 1#32
  let arg7 : BitVec 32 := Scf.iv c0_i32_12 c1_i32_14 k0_t2
  let c1_i32_16 : BitVec 32 := 1#32
  let v19 : BitVec 32 := Scalar.muli arg7 c1_i32_16
  let v20 : BitVec 32 := Scalar.addi c0_i32_17 v19
  let c1280_i32 : BitVec 32 := 1280#32
  let v21 : BitVec 32 := Scalar.muli v20 c1280_i32
  v21
def k0_off2 (k0_t2 : Fin k0_t2_loop.trips) : Fin 2 → Nat :=
  let c0_19 : Index := 0#32
  let c0_i32_17 : BitVec 32 := 0#32
  let c0_i32_12 : BitVec 32 := 0#32
  let c1_i32_14 : BitVec 32 := 1#32
  let arg7 : BitVec 32 := Scf.iv c0_i32_12 c1_i32_14 k0_t2
  let c1_i32_16 : BitVec 32 := 1#32
  let v19 : BitVec 32 := Scalar.muli arg7 c1_i32_16
  let v20 : BitVec 32 := Scalar.addi c0_i32_17 v19
  let c1280_i32 : BitVec 32 := 1280#32
  let v21 : BitVec 32 := Scalar.muli v20 c1280_i32
  let v22 : BitVec 32 := v21
  let v33 : Index := Scalar.indexCast v22
  ![0, v33.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x51200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x51200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S50000x64_S64x50000_1_0 : S50000x64.Transposes [1, 0] S64x50000
  pads_S64x50000_S64x51200_000_012000 : S64x50000.Pads (![0, 0] : Fin 2 → Nat) ![0, 1200] ![0, 0] S64x51200
  h_S_ : 0 < S_.numel
  bitsLt_bf16_f32 : FTy.bits .bf16 < FTy.bits .f32
  shapeCasts_S800000_S1x800000 : S800000.ShapeCasts S1x800000
  shapeCasts_S800000x1_S1x800000 : S800000x1.ShapeCasts S1x800000
  shapeCasts_S800000_S800000x1 : S800000.ShapeCasts S800000x1
  inb_S64x51200_S64x51200_0_0 : ∀ a, (![0, 0] : Fin 2 → Nat) a + S64x51200.size a ≤ S64x51200.size a
  h_S64x51200 : 0 < S64x51200.numel
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  iota_S1280x1_d0_w32 : S1280x1.Iotas .tc 32 [0]
  broadcasts_S1280x1_S1280x1280 : S1280x1.Broadcasts S1280x1280
  broadcasts_S1x1280_S1280x1280 : S1x1280.Broadcasts S1280x1280
  natLt_1_32 : 1 < 32
  broadcasts_S1x1280_S64x1280 : S1x1280.Broadcasts S64x1280
  iota_S1x1280_d1_w32 : S1x1280.Iotas .tc 32 [1]
  slices_S64x51200_S64x50000_0_0 : S64x51200.Slices ![0, 0] S64x50000
  transposes_S64x50000_S50000x64_1_0 : S64x50000.Transposes [1, 0] S50000x64
  dot_S64x1280_S1280x1280_S64x1280_1_0_0_1_n_n_wf : DotDims.WF S64x1280 S1280x1280 S64x1280 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x1280.size a ≤ S64x51200.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S64x1280.size a ≤ S64x51200.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280.size a ≤ S1x800000.size a
  hwx0_0 : ∀ i : grid0.Coords, EltTy.bits .i32 = 32 ∨ (Rect.block (s := S1x800000) S1x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x800000.size a
  hwx0_1 : ∀ i : grid0.Coords, EltTy.bits .f32 = 32 ∨ (Rect.block (s := S1x800000) S1x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x1.size a ≤ S800000x1.size a
  hwx0_2 : ∀ i : grid0.Coords, EltTy.bits .i32 = 32 ∨ (Rect.block (s := S800000x1) S1280x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x51200.size a ≤ S64x51200.size a
  hwx0_3 : ∀ i : grid0.Coords, EltTy.bits .bf16 = 32 ∨ (Rect.block (s := S64x51200) S64x51200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x51200.size a ≤ S64x51200.size a
  hwx0_4 : ∀ i : grid0.Coords, EltTy.bits .f32 = 32 ∨ (Rect.block (s := S64x51200) S64x51200.size (cc0_transform_4 i) (hinb0_4 i)).WholeWords (EltTy.packing .f32)

variable [Facts₀]

def dot_S64x1280_S1280x1280_S64x1280_1_0_0_1_n_n : DotDims S64x1280 S1280x1280 S64x1280 where
  lhsContracting := [1]
  rhsContracting := [0]
  lhsNonContracting := [0]
  rhsNonContracting := [1]
  lhsBatch := []
  rhsBatch := []
  wf := dot_S64x1280_S1280x1280_S64x1280_1_0_0_1_n_n_wf

abbrev win0_0 : Pipeline.Window sig grid0 :=
  Pipeline.Window.ofSpec (Memref.whole main_v3) S1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1280x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x51200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x51200.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x1 : Shape := ⟨2, ![800000, 1]⟩
abbrev S800000 : Shape := ⟨1, ![800000]⟩
abbrev S_ : Shape := ⟨0, ![]⟩
abbrev S800000x64 : Shape := ⟨2, ![800000, 64]⟩

abbrev nBuf : Space → Nat
  | .hbm => 19
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x64, .f32⟩
  | .hbm, ⟨13, _⟩ => ⟨S800000x64, .f32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The message-passing aggregate both programs compute, as one function of the four argument arrays.

  Edge e carries row src[e] of the table scaled by weight[e] to node dst[e]; a node's entry is the sum of what its
  edges carry. A row number past the table's last row contributes zero (the padded table's rows are zero), and an
  edge whose destination word is no node's number lands nowhere.
-/
import Idealize.ShloMosaic.Lib.ValueIdx
import Idealize.ShloMosaic.PureOps.Ideal

noncomputable section

open scoped BigOperators

namespace Cert.Spec

open Idealize.ShloMosaic Idealize.ShloMosaic.ValueIdx

/-- The one-hot entry: 1 when the 32-bit word `w` is the number `a`, else 0. -/
def hit (a : ℕ) (w : BitVec 32) : EReal := if BitVec.ofNat 32 a = w then 1 else 0

/-- The table's entry at row number `a`, column `d`; zero past the last row. -/
def qpad (q : (⟨2, ![50000, 64]⟩ : Shape).Idx → EReal) (a : ℕ) (d : Fin 64) : EReal :=
  if h : a < 50000 then q (ix2 ⟨a, h⟩ d) else 0

/-- What edge `e` carries in column `d`: the table's row `src[e]` scaled by the edge's weight. -/
def msg (q : (⟨2, ![50000, 64]⟩ : Shape).Idx → EReal) (w : (⟨2, ![800000, 1]⟩ : Shape).Idx → EReal)
    (src : (⟨1, ![800000]⟩ : Shape).Idx → BitVec 32) (e : Fin 800000) (d : Fin 64) : EReal :=
  qpad q (src (ix1 e)).toNat d * w (ix2 e 0)

/-- Node `n`'s aggregate in column `d`: the sum of what the edges whose destination is `n` carry. -/
def agg (q : (⟨2, ![50000, 64]⟩ : Shape).Idx → EReal) (w : (⟨2, ![800000, 1]⟩ : Shape).Idx → EReal)
    (src dst : (⟨1, ![800000]⟩ : Shape).Idx → BitVec 32) (n : Fin 50000) (d : Fin 64) : EReal :=
  ∑ e : Fin 800000, if (dst (ix1 e)).toInt = (n.val : ℤ) then msg q w src e d else 0

/-- The aggregate as an array over the table's shape. -/
def aggArr (q : (⟨2, ![50000, 64]⟩ : Shape).Idx → EReal) (w : (⟨2, ![800000, 1]⟩ : Shape).Idx → EReal)
    (src dst : (⟨1, ![800000]⟩ : Shape).Idx → BitVec 32) : (⟨2, ![50000, 64]⟩ : Shape).Idx → EReal :=
  fun i => agg q w src dst (i 0) (i 1)

end Cert.Spec

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.PayIdx.lean ====
/-
  The two loop bodies' stored values read at an index, at the ideal values.
-/
import proofs.«429128_j48644799595011_1_alg».proof.Proof.Gen.KernelIdeal.Skeleton
import proofs.«429128_j48644799595011_1_alg».proof.Proof.Spec
import proofs.«429128_j48644799595011_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen Cert.Spec

/-- A column `[a, 1]` broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Trip `k`'s offset word: the induction variable times 1280 is the word of `k · 1280`. -/
private theorem trip_off (k : ℕ) :
    Scalar.muli (Scalar.addi 0#32 (Scalar.muli (Scf.iv 0#32 1#32 k) 1#32)) 1280#32 = BitVec.ofNat 32 (k * 1280) := by
  simp [Scalar.muli, Scalar.addi, IntOp.muli, IntOp.addi, Scf.iv, BitVec.ofNat_mul]

/-- A 32-bit equality test, widened to a word and converted, is 1 when the words agree and 0 otherwise. -/
private theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    simp [IntOp.cmpi]
  · have hb : (a == b) = false := beq_eq_false_iff_ne.mpr h
    simp [IntOp.cmpi, hb, h]

/-- The node numbers of trip `k` down a column (`iota` along axis 0 of `[1280, 1]` plus the trip's offset), copied
    along the columns: the entry at `(n, c)` is the word of `k · 1280 + n`. -/
private theorem nodeCol_apply (k : ℕ) (hi : S1280x1.Iotas .tc 32 [0]) (hb : S1280x1.Broadcasts S1280x1280) (n c : Fin 1280) :
    broadcastTo S1280x1280
        (addi (iota .tc S1280x1 32 [0] hi)
          (broadcast S1280x1 (Scalar.muli (Scalar.addi 0#32 (Scalar.muli (Scf.iv 0#32 1#32 k) 1#32)) 1280#32)))
        hb (ix2 n c)
      = BitVec.ofNat 32 (k * 1280 + n.val) := by
  refine (broadcastTo_a1_ab_apply _ hb n c).trans ?_
  show IntOp.addi (iota .tc S1280x1 32 [0] hi (ix2 n 0))
      (Scalar.muli (Scalar.addi 0#32 (Scalar.muli (Scf.iv 0#32 1#32 k) 1#32)) 1280#32) = _
  rw [iota_single_apply, trip_off]
  show BitVec.ofNat 32 n.val + BitVec.ofNat 32 (k * 1280) = _
  rw [← BitVec.ofNat_add, Nat.add_comm]

/-- The node numbers of trip `k` along a row (`iota` along axis 1 of `[1, 1280]` plus the trip's offset), copied down
    the rows: the entry at `(r, c)` is the word of `k · 1280 + c`. -/
private theorem nodeRow_apply (k : ℕ) (hi : S1x1280.Iotas .tc 32 [1]) (hb : S1x1280.Broadcasts S1280x1280) (r c : Fin 1280) :
    broadcastTo S1280x1280
        (addi (iota .tc S1x1280 32 [1] hi)
          (broadcast S1x1280 (Scalar.muli (Scalar.addi 0#32 (Scalar.muli (Scf.iv 0#32 1#32 k) 1#32)) 1280#32)))
        hb (ix2 r c)
      = BitVec.ofNat 32 (k * 1280 + c.val) := by
  refine (broadcastTo_1b_ab_apply _ hb r c).trans ?_
  show IntOp.addi (iota .tc S1x1280 32 [1] hi (ix2 0 c))
      (Scalar.muli (Scalar.addi 0#32 (Scalar.muli (Scf.iv 0#32 1#32 k) 1#32)) 1280#32) = _
  rw [iota_single_apply, trip_off]
  show BitVec.ofNat 32 c.val + BitVec.ofNat 32 (k * 1280) = _
  rw [← BitVec.ofNat_add, Nat.add_comm]

/-- Gather trip `k`: the scratch entry (d, e) grows by the product of row d of the table's block k with the one-hot
    column that marks, among the block's 1280 node numbers k·1280 + n, the one equal to edge e's source word. -/
theorem pay3_apply (v7 : Vec Ideal S1x1280 .i32) (k : Fin k0_t1_loop.trips) (v33 : Vec Ideal S64x1280 .bf16)
    (v35 : Vec Ideal S64x1280 .f32) (d : Fin 64) (e : Fin 1280) :
    k0_pay3 (F := Ideal) v7 k v33 v35 (ix2 d e)
      = v35 (ix2 d e) + ∑ n : Fin 1280, v33 (ix2 d n) * hit (k.val * 1280 + n.val) (v7 (ix2 0 e)) := by
  unfold k0_pay3
  -- a shape cast to the same shape is the identity
  simp only [shapeCast_self]
  rw [addf_apply]
  congr 1
  -- the product into the zero vector is the plain sum over the contracted axis
  refine (Cert.LibDot.matmul_plain_apply _ rfl rfl rfl rfl rfl rfl none _ _ d e).trans ?_
  refine Finset.sum_congr rfl fun n _ => ?_
  congr 1
  -- the one-hot entry (n, e): the node number k · 1280 + n against edge e's source word
  rw [truncf_apply, sitofp_apply, extui_apply]
  refine (onehot_word _ _).trans ?_
  rw [nodeCol_apply, broadcastTo_1b_ab_apply]
  rfl

/-- Scatter trip `k`: the output entry (d, k·1280 + c) grows by the sum over the tile's edges e of the weighted message
    (scratch · weight) times the one-hot entry that marks whether edge e's destination word is node k·1280 + c. -/
theorem pay4_apply (v9 : Vec Ideal S1x1280 .f32) (v11 : Vec Ideal S1280x1 .i32) (v14 : Vec Ideal S64x1280 .f32)
    (k : Fin k0_t2_loop.trips) (v34 : Vec Ideal S64x1280 .f32) (d : Fin 64) (c : Fin 1280) :
    k0_pay4 (F := Ideal) v9 v11 v14 k v34 (ix2 d c)
      = v34 (ix2 d c) + ∑ e : Fin 1280, (v14 (ix2 d e) * v9 (ix2 0 e)) * hit (k.val * 1280 + c.val) (v11 (ix2 e 0)) := by
  unfold k0_pay4
  -- a shape cast to the same shape is the identity
  simp only [shapeCast_self]
  rw [addf_apply]
  congr 1
  -- the product into the zero vector is the plain sum over the contracted axis
  refine (Cert.LibDot.matmul_plain_apply _ rfl rfl rfl rfl rfl rfl none _ _ d c).trans ?_
  refine Finset.sum_congr rfl fun e _ => ?_
  congr 1
  · -- the weighted message: the scratch entry times the edge's weight, the weights' row copied down the rows
    rw [truncf_apply, mulf_apply, broadcastTo_1b_ab_apply]
  · -- the one-hot entry (e, c): edge e's destination word against the node number k · 1280 + c
    rw [truncf_apply, sitofp_apply, extui_apply]
    refine (onehot_word _ _).trans ?_
    rw [nodeRow_apply, broadcastTo_a1_ab_apply]
    unfold hit
    exact if_congr eq_comm rfl rfl

end Cert.KernelIdeal.PayIdx

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.Tile.lean ====
/-
  One edge tile's work, as the kernel's two inner loops sum it.

  The gather loop walks the padded table in 40 blocks of 1280 rows and, for an edge whose source word is `w`, adds up
  row entries times the one-hot marks `hit (t·1280 + n) w`: exactly one row number can match, so the sum is the
  table's row `w` (zero when `w` is no row of the padded table). The scatter loop adds, to output entry (d, a), the
  tile's weighted messages times the marks `hit a (dst e)`.
-/
import proofs.«429128_j48644799595011_1_alg».proof.Proof.Spec
import proofs.«429128_j48644799595011_1_alg».proof.Proof.LibSumBlocks
import Mathlib.Algebra.BigOperators.Fin
import Mathlib.Algebra.BigOperators.Ring.Finset

noncomputable section

open scoped BigOperators

namespace Cert.Tile

open Idealize.ShloMosaic Idealize.ShloMosaic.ValueIdx Cert.Spec

/-- Row `a` of the padded, transposed table at feature `d`; zero past its 51200 rows. -/
def rowAt (X : (⟨2, ![64, 51200]⟩ : Shape).Idx → EReal) (d : Fin 64) (a : ℕ) : EReal :=
  if h : a < 51200 then X (ix2 d ⟨a, h⟩) else 0

/-- The gather loop's sum for an edge whose source word is `w`. -/
def gath (X : (⟨2, ![64, 51200]⟩ : Shape).Idx → EReal) (d : Fin 64) (w : BitVec 32) : EReal :=
  ∑ t ∈ Finset.range 40, ∑ n : Fin 1280, rowAt X d (t * 1280 + n.val) * hit (t * 1280 + n.val) w

/-- The tile's contribution to output entry (d, a). -/
def scat (X : (⟨2, ![64, 51200]⟩ : Shape).Idx → EReal) (srcT : (⟨2, ![1, 1280]⟩ : Shape).Idx → BitVec 32)
    (wT : (⟨2, ![1, 1280]⟩ : Shape).Idx → EReal) (dstT : (⟨2, ![1280, 1]⟩ : Shape).Idx → BitVec 32)
    (d : Fin 64) (a : ℕ) : EReal :=
  ∑ e : Fin 1280, (gath X d (srcT (ix2 0 e)) * wT (ix2 0 e)) * hit a (dstT (ix2 e 0))

/-! ## The gather loop's sum picks one row -/

/-- A number below 2³² is a word's number exactly when the word is that number's word. -/
theorem ofNat_eq_iff (a : ℕ) (ha : a < 2 ^ 32) (w : BitVec 32) : BitVec.ofNat 32 a = w ↔ a = w.toNat := by
  constructor
  · intro h
    rw [← h, BitVec.toNat_ofNat, Nat.mod_eq_of_lt ha]
  · intro h
    apply BitVec.eq_of_toNat_eq
    rw [BitVec.toNat_ofNat, h]
    exact Nat.mod_eq_of_lt w.isLt

theorem hit_eq (a : ℕ) (ha : a < 2 ^ 32) (w : BitVec 32) : hit a w = if a = w.toNat then 1 else 0 := by
  unfold hit
  by_cases h : a = w.toNat
  · rw [if_pos ((ofNat_eq_iff a ha w).mpr h), if_pos h]
  · rw [if_neg (fun h' => h ((ofNat_eq_iff a ha w).mp h')), if_neg h]

/-- Among the 51200 row numbers at most one is the source word's: the sum of rows against the marks is that row. -/
theorem gath_eq (X : (⟨2, ![64, 51200]⟩ : Shape).Idx → EReal) (d : Fin 64) (w : BitVec 32) :
    gath X d w = rowAt X d w.toNat := by
  unfold gath
  rw [← Cert.LibSumBlocks.sum_fin_mul 40 1280 (fun a => rowAt X d a * hit a w)]
  have hterm : ∀ b : Fin (40 * 1280), rowAt X d b.val * hit b.val w = if b.val = w.toNat then rowAt X d w.toNat else 0 := by
    intro b
    rw [hit_eq b.val (by have := b.isLt; omega) w]
    by_cases h : b.val = w.toNat
    · rw [if_pos h, if_pos h, mul_one, h]
    · rw [if_neg h, if_neg h, mul_zero]
  rw [Finset.sum_congr rfl fun b _ => hterm b]
  by_cases hw : w.toNat < 40 * 1280
  · rw [Finset.sum_eq_single (⟨w.toNat, hw⟩ : Fin (40 * 1280))]
    · rw [if_pos rfl]
    · intro b _ hb
      rw [if_neg (fun h => hb (Fin.ext h))]
    · intro h; exact absurd (Finset.mem_univ _) h
  · rw [Finset.sum_eq_zero]
    · unfold rowAt
      rw [dif_neg (by omega)]
    · intro b _
      rw [if_neg (by have := b.isLt; omega)]

end Cert.Tile

end
-- ==== Proof.Body.lean ====
/-
  The kernel body's two inner loops as functions of what they read.

  Each trip of either loop stores ONE piece: the gather loop rewrites the whole scratch with "what it held plus the
  block's one-hot product", the scatter loop rewrites block k of the output with "what it held plus the tile's one-hot
  product". Trip k of the scatter loop touches block k only, so after k trips the output is the entry contents plus the
  tile's contribution on the blocks before k, and the entry contents on the rest.
-/
import proofs.«429128_j48644799595011_1_alg».proof.Proof.Gen.KernelIdeal.Frame
import proofs.«429128_j48644799595011_1_alg».proof.Proof.PayIdx
import proofs.«429128_j48644799595011_1_alg».proof.Proof.Tile
import Idealize.ShloMosaic.Lib.ValueIdx
import Idealize.ShloMosaic.Lib.Pipeline.Value

set_option maxRecDepth 16384

noncomputable section

open scoped BigOperators

namespace Cert.KernelIdeal.Body

open Idealize.ShloMosaic Idealize.ShloMosaic.TcCoe Idealize.ShloMosaic.ValueIdx Idealize.SL.Sem
open Cert.KernelIdeal Cert.KernelIdeal.Gen Cert.Spec Cert.Tile Cert.KernelIdeal.PayIdx

theorem trips1 : k0_t1_loop.trips = 40 := by decide +kernel
theorem trips2 : k0_t2_loop.trips = 40 := by decide +kernel

section

variable (𝒱 : Variants) (c : Dev nD) (bd : Option 𝒱.V) (i : grid0.Coords)
  (arg1 : Memref sig .tc .vmem S1x1280 .i32) (harg1 : arg1.IsWhole) (arg2 : Memref sig .tc .vmem S1x1280 .f32) (harg2 : arg2.IsWhole)
  (arg3 : Memref sig .tc .vmem S1280x1 .i32) (harg3 : arg3.IsWhole) (arg4 : Memref sig .tc .vmem S64x51200 .bf16) (harg4 : arg4.IsWhole)
  (arg5 : Memref sig .tc .vmem S64x51200 .f32) (harg5 : arg5.IsWhole) (arg6 : Memref sig .tc .vmem S64x1280 .f32) (harg6 : arg6.IsWhole)

/-! ## One trip's piece -/

/-- A gather trip stores, through the whole scratch, the payload of the table's block k and of the scratch it finds. -/
theorem tripL1_eq (v7 : Vec Ideal S1x1280 .i32) (X : BufTy.Contents (Elt Ideal) arg4.view.ty) (k : Fin k0_t1_loop.trips)
    (f : BufTy.Contents (Elt Ideal) arg6.view.ty) :
    tripL_k0_t1 (F := Ideal) 𝒱 c bd i arg1 harg1 arg2 harg2 arg3 harg3 arg4 harg4 arg5 harg5 arg6 harg6 v7 X k f
      = [⟨Rect.unit (s := S64x1280) ![0, 0] S64x1280.size Facts₀.inb_S64x1280_S64x1280_0_0,
          k0_pay3 v7 k (arg4.view.readAt (Elt Ideal) (Rect.unit (s := S64x51200) (k0_off1 k) S64x1280.size (Facts₀.k0_off1_inb k)).toLoadRect X)
            (arg6.view.readAt (Elt Ideal) (Rect.unit (s := S64x1280) ![0, 0] S64x1280.size Facts₀.inb_S64x1280_S64x1280_0_0).toLoadRect f)⟩] := by
  unfold tripL_k0_t1 trip_k0_t1; rfl

/-- A scatter trip stores, through block k of the output, the payload of that block as it finds it. -/
theorem tripL2_eq (v9 : Vec Ideal S1x1280 .f32) (v11 : Vec Ideal S1280x1 .i32) (v14 : Vec Ideal S64x1280 .f32)
    (k : Fin k0_t2_loop.trips) (f : BufTy.Contents (Elt Ideal) arg5.view.ty) :
    tripL_k0_t2 (F := Ideal) 𝒱 c bd i arg1 harg1 arg2 harg2 arg3 harg3 arg4 harg4 arg5 harg5 arg6 harg6 v9 v11 v14 k f
      = [⟨Rect.unit (s := S64x51200) (k0_off2 k) S64x1280.size (Facts₀.k0_off2_inb k),
          k0_pay4 v9 v11 v14 k (arg5.view.readAt (Elt Ideal) (Rect.unit (s := S64x51200) (k0_off2 k) S64x1280.size (Facts₀.k0_off2_inb k)).toLoadRect f)⟩] := by
  unfold tripL_k0_t2 trip_k0_t2; rfl

/-! ## The scatter loop -/

/-- What a tile adds to output entry (d, a), from the loop's own operands: the weighted messages against the marks. -/
def contrib (v9 : Vec Ideal S1x1280 .f32) (v11 : Vec Ideal S1280x1 .i32) (v14 : Vec Ideal S64x1280 .f32) (d : Fin 64) (a : ℕ) : EReal :=
  ∑ e : Fin 1280, (v14 (ix2 d e) * v9 (ix2 0 e)) * hit a (v11 (ix2 e 0))

/-- Entry (d, a) of the output, a in block k, is the entry (d, a − k·1280) of that block's rectangle. -/
theorem idx_block2 (k : Fin k0_t2_loop.trips) (d : Fin 64) (a : Fin 51200) (h1 : k.val * 1280 ≤ a.val) (h2 : a.val < (k.val + 1) * 1280) :
    (ix2 d a : S64x51200.Idx)
      = (Rect.unit (s := S64x51200) (k0_off2 k) S64x1280.size (Facts₀.k0_off2_inb k)).emb (ix2 d ⟨a.val - k.val * 1280, by omega⟩) := by
  have hoff := k0_off2_eq k
  funext ax
  refine Fin.ext ?_
  rw [Rect.emb_apply]
  match ax with
  | ⟨0, _⟩ =>
    show d.val = k0_off2 k 0 + 1 * d.val
    rw [hoff]; show d.val = 0 + 1 * d.val; omega
  | ⟨1, _⟩ =>
    show a.val = k0_off2 k 1 + 1 * (a.val - k.val * 1280)
    rw [hoff]; show a.val = 1280 * k.val + 1 * (a.val - k.val * 1280); omega

/-- An entry outside block k is outside that block's rectangle. -/
theorem not_mem_block2 (k : Fin k0_t2_loop.trips) (d : Fin 64) (a : Fin 51200) (h : ¬ (k.val * 1280 ≤ a.val ∧ a.val < (k.val + 1) * 1280)) :
    (ix2 d a : S64x51200.Idx) ∉ (Rect.unit (s := S64x51200) (k0_off2 k) S64x1280.size (Facts₀.k0_off2_inb k)).set := by
  have hoff := k0_off2_eq k
  rw [Rect.mem_set_unit]
  intro hm
  have h1 := hm 1
  rw [hoff] at h1
  have h1' : 1280 * k.val ≤ a.val ∧ a.val < 1280 * k.val + 1280 := h1
  omega

theorem loop2_inv (v9 : Vec Ideal S1x1280 .f32) (v11 : Vec Ideal S1280x1 .i32) (v14 : Vec Ideal S64x1280 .f32)
    (G : BufTy.Contents (Elt Ideal) arg5.view.ty) (k : ℕ) (hk : k ≤ 40) (d : Fin 64) (a : Fin 51200) :
    arg5.view.read (Elt Ideal) (arg5.view.writes (Elt Ideal) G
        (pb_k0_t2 (F := Ideal) 𝒱 c bd i arg1 harg1 arg2 harg2 arg3 harg3 arg4 harg4 arg5 harg5 arg6 harg6 v9 v11 v14 G k)) (ix2 d a)
      = if a.val < k * 1280 then arg5.view.read (Elt Ideal) G (ix2 d a) + contrib v9 v11 v14 d a.val
        else arg5.view.read (Elt Ideal) G (ix2 d a) := by
  induction k with
  | zero =>
    rw [pb_k0_t2.eq_1, View.writes_nil, if_neg (by omega)]
  | succ k ih =>
    have hk' : k < k0_t2_loop.trips := by rw [trips2]; omega
    have ih := ih (by omega)
    have hs := pb_k0_t2_succ (F := Ideal) 𝒱 c bd i arg1 harg1 arg2 harg2 arg3 harg3 arg4 harg4 arg5 harg5 arg6 harg6 v9 v11 v14 G ⟨k, hk'⟩
    rw [show (⟨k, hk'⟩ : Fin k0_t2_loop.trips).val + 1 = k + 1 from rfl] at hs
    rw [hs, tripL2_eq, List.singleton_append]
    by_cases hblk : k * 1280 ≤ a.val ∧ a.val < (k + 1) * 1280
    · obtain ⟨h1, h2⟩ := hblk
      have hidx := idx_block2 ⟨k, hk'⟩ d a h1 h2
      rw [hidx, View.read_writes_cons_emb, pay4_apply, View.readAt_apply]
      rw [show (Rect.unit (s := S64x51200) (k0_off2 ⟨k, hk'⟩) S64x1280.size (Facts₀.k0_off2_inb ⟨k, hk'⟩)).toLoadRect.idx
          (ix2 d ⟨a.val - k * 1280, by omega⟩) = ix2 d a from hidx.symm]
      rw [ih, if_neg (by omega), ← hidx, if_pos (by omega)]
      unfold contrib
      rw [show k * 1280 + (a.val - k * 1280) = a.val by omega]
    · have hnm := not_mem_block2 ⟨k, hk'⟩ d a hblk
      rw [View.writes_cons, View.read_slice_write_of_not_mem _ _ _ _ (by rw [Rect.map_emb_univ]; exact hnm), ih]
      by_cases h3 : a.val < k * 1280
      · rw [if_pos h3, if_pos (by omega)]
      · rw [if_neg h3, if_neg (by omega)]

/-! ## The gather loop -/

/-- The whole-scratch rectangle places an index at itself. -/
theorem idx_whole1 (d : Fin 64) (e : Fin 1280) :
    (ix2 d e : S64x1280.Idx)
      = (Rect.unit (s := S64x1280) ![0, 0] S64x1280.size Facts₀.inb_S64x1280_S64x1280_0_0).emb (ix2 d e) := by
  funext ax
  refine Fin.ext ?_
  rw [Rect.emb_apply]
  match ax with
  | ⟨0, _⟩ => show d.val = 0 + 1 * d.val; omega
  | ⟨1, _⟩ => show e.val = 0 + 1 * e.val; omega

/-- Entry (d, n) of the table's block k is row k·1280 + n of the table. -/
theorem idx_block1 (k : Fin k0_t1_loop.trips) (d : Fin 64) (n : Fin 1280) :
    (Rect.unit (s := S64x51200) (k0_off1 k) S64x1280.size (Facts₀.k0_off1_inb k)).toLoadRect.idx (ix2 d n)
      = (ix2 d ⟨k.val * 1280 + n.val, by have hk : k.val < 40 := lt_of_lt_of_eq k.isLt trips1; have := n.isLt; omega⟩ : S64x51200.Idx) := by
  have hoff := k0_off1_eq k
  funext ax
  refine Fin.ext ?_
  rw [LoadRect.idx_apply]
  match ax with
  | ⟨0, _⟩ =>
    show k0_off1 k 0 + 1 * d.val = d.val
    rw [hoff]; show 0 + 1 * d.val = d.val; omega
  | ⟨1, _⟩ =>
    show k0_off1 k 1 + 1 * n.val = k.val * 1280 + n.val
    rw [hoff]; show 1280 * k.val + 1 * n.val = k.val * 1280 + n.val; omega

theorem loop1_inv (v7 : Vec Ideal S1x1280 .i32) (X : BufTy.Contents (Elt Ideal) arg4.view.ty)
    (G : BufTy.Contents (Elt Ideal) arg6.view.ty) (k : ℕ) (hk : k ≤ 40) (d : Fin 64) (e : Fin 1280) :
    arg6.view.read (Elt Ideal) (arg6.view.writes (Elt Ideal) G
        (pb_k0_t1 (F := Ideal) 𝒱 c bd i arg1 harg1 arg2 harg2 arg3 harg3 arg4 harg4 arg5 harg5 arg6 harg6 v7 X G k)) (ix2 d e)
      = arg6.view.read (Elt Ideal) G (ix2 d e)
        + ∑ t ∈ Finset.range k, ∑ n : Fin 1280,
            rowAt (arg4.view.read (Elt Ideal) X) d (t * 1280 + n.val) * hit (t * 1280 + n.val) (v7 (ix2 0 e)) := by
  induction k with
  | zero =>
    rw [pb_k0_t1.eq_1, View.writes_nil, Finset.range_zero, Finset.sum_empty, add_zero]
  | succ k ih =>
    have hk' : k < k0_t1_loop.trips := by rw [trips1]; omega
    have ih := ih (by omega)
    have hs := pb_k0_t1_succ (F := Ideal) 𝒱 c bd i arg1 harg1 arg2 harg2 arg3 harg3 arg4 harg4 arg5 harg5 arg6 harg6 v7 X G ⟨k, hk'⟩
    rw [show (⟨k, hk'⟩ : Fin k0_t1_loop.trips).val + 1 = k + 1 from rfl] at hs
    rw [hs, tripL1_eq, List.singleton_append]
    conv_lhs => rw [idx_whole1 d e]
    rw [View.read_writes_cons_emb, pay3_apply, View.readAt_apply]
    rw [show (Rect.unit (s := S64x1280) ![0, 0] S64x1280.size Facts₀.inb_S64x1280_S64x1280_0_0).toLoadRect.idx (ix2 d e)
        = ix2 d e from (idx_whole1 d e).symm]
    rw [ih, Finset.sum_range_succ, add_assoc]
    congr 2
    refine Finset.sum_congr rfl fun n _ => ?_
    rw [View.readAt_apply, idx_block1 ⟨k, hk'⟩ d n]
    unfold rowAt
    rw [dif_pos (by have := n.isLt; show k * 1280 + n.val < 51200; omega)]

/-! ## What one grid point leaves in the output window -/

theorem pay2_zero (d : Fin 64) (e : Fin 1280) : k0_pay2 (F := Ideal) (ix2 d e) = 0 := by
  unfold k0_pay2
  simp only [shapeCast_self]
  show (Scalar.ofBits (F := Ideal) .f32 0x00000000#32 : EReal) = 0
  exact Ideal.ofBits_zero_f32

theorem pay1_zero (d : Fin 64) (a : Fin 51200) : k0_pay1 (F := Ideal) (ix2 d a) = 0 := by
  unfold k0_pay1
  show (Scalar.ofBits (F := Ideal) .f32 0x00000000#32 : EReal) = 0
  exact Ideal.ofBits_zero_f32

theorem hz2 : (![0, 0] : Fin 2 → ℕ) = fun _ => 0 := by
  funext a; match a with | ⟨0, _⟩ => rfl | ⟨1, _⟩ => rfl

/-- The scratch after the gather loop, started from zeros: entry (d, e) is the table's row that edge e's source word names. -/
theorem gathered (x0 : Vec Ideal S1x1280 .i32) (x3 : Vec Ideal S64x51200 .bf16) (d : Fin 64) (e : Fin 1280) :
    arg6.view.readAt (Elt Ideal) (Rect.unit (s := S64x1280) ![0, 0] S64x1280.size Facts₀.inb_S64x1280_S64x1280_0_0).toLoadRect
      (arg6.view.writes (Elt Ideal) arg6.view.junk
        (pb_k0_t1 (F := Ideal) 𝒱 c bd i arg1 harg1 arg2 harg2 arg3 harg3 arg4 harg4 arg5 harg5 arg6 harg6
            (arg1.view.readAt (Elt Ideal) (Rect.unit (s := S1x1280) ![0, 0] S1x1280.size Facts₀.inb_S1x1280_S1x1280_0_0).toLoadRect (harg1.unread x0))
            (harg4.unread x3)
            (arg6.view.writes (Elt Ideal) arg6.view.junk
              [⟨Rect.unit (s := S64x1280) ![0, 0] S64x1280.size Facts₀.inb_S64x1280_S64x1280_0_0, k0_pay2 (F := Ideal)⟩])
            40
          ++ [⟨Rect.unit (s := S64x1280) ![0, 0] S64x1280.size Facts₀.inb_S64x1280_S64x1280_0_0, k0_pay2 (F := Ideal)⟩])) (ix2 d e)
      = gath x3 d (x0 (ix2 0 e)) := by
  rw [View.readAt_apply]
  rw [show (Rect.unit (s := S64x1280) ![0, 0] S64x1280.size Facts₀.inb_S64x1280_S64x1280_0_0).toLoadRect.idx (ix2 d e)
      = ix2 d e from (idx_whole1 d e).symm]
  rw [View.writes_append, loop1_inv 𝒱 c bd i arg1 harg1 arg2 harg2 arg3 harg3 arg4 harg4 arg5 harg5 arg6 harg6 _ _ _ 40 le_rfl d e]
  have hzero : arg6.view.read (Elt Ideal) (arg6.view.writes (Elt Ideal) arg6.view.junk
      [⟨Rect.unit (s := S64x1280) ![0, 0] S64x1280.size Facts₀.inb_S64x1280_S64x1280_0_0, k0_pay2 (F := Ideal)⟩]) (ix2 d e) = 0 := by
    conv_lhs => rw [idx_whole1 d e]
    rw [View.read_writes_cons_emb, pay2_zero]
  rw [hzero, zero_add, harg4.read_unread, View.readAt_eq_ld, harg1.read_unread, View.ld_unit_zero (S := S1x1280) hz2]
  rfl

end

/-! ### Case B: a point after the first adds its tile to what the point before left -/

theorem out0_B_apply (c : Dev nD) (i : grid0.Coords) (arg1 : Memref sig .tc .vmem S1x1280 .i32) (harg1 : arg1.IsWhole)
    (arg2 : Memref sig .tc .vmem S1x1280 .f32) (harg2 : arg2.IsWhole) (arg3 : Memref sig .tc .vmem S1280x1 .i32) (harg3 : arg3.IsWhole)
    (arg4 : Memref sig .tc .vmem S64x51200 .bf16) (harg4 : arg4.IsWhole) (arg5 : Memref sig .tc .vmem S64x51200 .f32) (harg5 : arg5.IsWhole)
    (arg6 : Memref sig .tc .vmem S64x1280 .f32) (harg6 : arg6.IsWhole) (hc0 : ¬cond0_0 i)
    (x0 : Vec Ideal S1x1280 .i32) (x1 : Vec Ideal S1x1280 .f32) (x2 : Vec Ideal S1280x1 .i32) (x3 : Vec Ideal S64x51200 .bf16)
    (xo4 : Vec Ideal S64x51200 .f32) (d : Fin 64) (a : Fin 51200) :
    out0_B_4 (F := Ideal) c i arg1 harg1 arg2 harg2 arg3 harg3 arg4 harg4 arg5 harg5 arg6 harg6 hc0 x0 x1 x2 x3 xo4 (ix2 d a)
      = xo4 (ix2 d a) + scat x3 x0 x1 x2 d a.val := by
  unfold out0_B_4
  rw [View.read_writes_of_cover VO0_4 VO0_4.junk arg5.view (harg5.unread xo4) _
    (cover0_B_4 c i arg1 harg1 arg2 harg2 arg3 harg3 arg4 harg4 arg5 harg5 arg6 harg6 hc0 x0 x1 x2 x3 xo4)]
  have hL : (kernelRun0_B (F := Ideal) c i arg1 harg1 arg2 harg2 arg3 harg3 arg4 harg4 arg5 harg5 arg6 harg6 hc0 x0 x1 x2 x3 xo4).1
      = pb_k0_t2 (F := Ideal) Variants.none c none i arg1 harg1 arg2 harg2 arg3 harg3 arg4 harg4 arg5 harg5 arg6 harg6
          (arg2.view.readAt (Elt Ideal) (Rect.unit (s := S1x1280) ![0, 0] S1x1280.size Facts₀.inb_S1x1280_S1x1280_0_0).toLoadRect (harg2.unread x1))
          (arg3.view.readAt (Elt Ideal) (Rect.unit (s := S1280x1) ![0, 0] S1280x1.size Facts₀.inb_S1280x1_S1280x1_0_0).toLoadRect (harg3.unread x2))
          (kernelRun0_B.sl.v14 c i arg1 harg1 arg2 harg2 arg3 harg3 arg4 harg4 arg5 harg5 arg6 harg6 x0 x3)
          (harg5.unread xo4) 40 := by
    unfold kernelRun0_B; rfl
  rw [hL, loop2_inv Variants.none c none i arg1 harg1 arg2 harg2 arg3 harg3 arg4 harg4 arg5 harg5 arg6 harg6 _ _ _ _ 40 le_rfl d a,
    if_pos (by have := a.isLt; omega), harg5.read_unread]
  congr 1
  unfold contrib scat
  refine Finset.sum_congr rfl fun e _ => ?_
  rw [View.readAt_eq_ld, harg2.read_unread, View.ld_unit_zero (S := S1x1280) hz2,
    View.readAt_eq_ld, harg3.read_unread, View.ld_unit_zero (S := S1280x1) hz2]
  refine congrArg (· * hit a.val (x2 (ix2 e 0))) (congrArg (· * x1 (ix2 0 e)) ?_)
  unfold kernelRun0_B.sl.v14 kernelRun0_B.sl.HS0_1
  exact gathered Variants.none c none i arg1 harg1 arg2 harg2 arg3 harg3 arg4 harg4 arg5 harg5 arg6 harg6 x0 x3 d e

/-! ### Case A: the first point zeroes the window, then adds its tile -/

theorem out0_A_apply (c : Dev nD) (i : grid0.Coords) (arg1 : Memref sig .tc .vmem S1x1280 .i32) (harg1 : arg1.IsWhole)
    (arg2 : Memref sig .tc .vmem S1x1280 .f32) (harg2 : arg2.IsWhole) (arg3 : Memref sig .tc .vmem S1280x1 .i32) (harg3 : arg3.IsWhole)
    (arg4 : Memref sig .tc .vmem S64x51200 .bf16) (harg4 : arg4.IsWhole) (arg5 : Memref sig .tc .vmem S64x51200 .f32) (harg5 : arg5.IsWhole)
    (arg6 : Memref sig .tc .vmem S64x1280 .f32) (harg6 : arg6.IsWhole) (hc0 : cond0_0 i)
    (x0 : Vec Ideal S1x1280 .i32) (x1 : Vec Ideal S1x1280 .f32) (x2 : Vec Ideal S1280x1 .i32) (x3 : Vec Ideal S64x51200 .bf16)
    (d : Fin 64) (a : Fin 51200) :
    out0_A_4 (F := Ideal) c i arg1 harg1 arg2 harg2 arg3 harg3 arg4 harg4 arg5 harg5 arg6 harg6 hc0 x0 x1 x2 x3 (ix2 d a)
      = scat x3 x0 x1 x2 d a.val := by
  unfold out0_A_4
  rw [View.read_writes_of_cover VO0_4 VO0_4.junk arg5.view arg5.view.junk _
    (cover0_A_4 c i arg1 harg1 arg2 harg2 arg3 harg3 arg4 harg4 arg5 harg5 arg6 harg6 hc0 x0 x1 x2 x3)]
  have hL : (kernelRun0_A (F := Ideal) c i arg1 harg1 arg2 harg2 arg3 harg3 arg4 harg4 arg5 harg5 arg6 harg6 hc0 x0 x1 x2 x3).1
      = pb_k0_t2 (F := Ideal) Variants.none c none i arg1 harg1 arg2 harg2 arg3 harg3 arg4 harg4 arg5 harg5 arg6 harg6
          (arg2.view.readAt (Elt Ideal) (Rect.unit (s := S1x1280) ![0, 0] S1x1280.size Facts₀.inb_S1x1280_S1x1280_0_0).toLoadRect (harg2.unread x1))
          (arg3.view.readAt (Elt Ideal) (Rect.unit (s := S1280x1) ![0, 0] S1280x1.size Facts₀.inb_S1280x1_S1280x1_0_0).toLoadRect (harg3.unread x2))
          (kernelRun0_A.sl.v14 c i arg1 harg1 arg2 harg2 arg3 harg3 arg4 harg4 arg5 harg5 arg6 harg6 x0 x3)
          (arg5.view.writes (Elt Ideal) arg5.view.junk
            [⟨Rect.unit (s := S64x51200) ![0, 0] S64x51200.size Facts₀.inb_S64x51200_S64x51200_0_0, k0_pay1 (F := Ideal)⟩]) 40
        ++ [⟨Rect.unit (s := S64x51200) ![0, 0] S64x51200.size Facts₀.inb_S64x51200_S64x51200_0_0, k0_pay1 (F := Ideal)⟩] := by
    unfold kernelRun0_A; rfl
  rw [hL, View.writes_append,
    loop2_inv Variants.none c none i arg1 harg1 arg2 harg2 arg3 harg3 arg4 harg4 arg5 harg5 arg6 harg6 _ _ _ _ 40 le_rfl d a,
    if_pos (by have := a.isLt; omega)]
  have hzero : arg5.view.read (Elt Ideal) (arg5.view.writes (Elt Ideal) arg5.view.junk
      [⟨Rect.unit (s := S64x51200) ![0, 0] S64x51200.size Facts₀.inb_S64x51200_S64x51200_0_0, k0_pay1 (F := Ideal)⟩]) (ix2 d a) = 0 := by
    have hw : (ix2 d a : S64x51200.Idx)
        = (Rect.unit (s := S64x51200) ![0, 0] S64x51200.size Facts₀.inb_S64x51200_S64x51200_0_0).emb (ix2 d a) := by
      funext ax
      refine Fin.ext ?_
      rw [Rect.emb_apply]
      match ax with
      | ⟨0, _⟩ => show d.val = 0 + 1 * d.val; omega
      | ⟨1, _⟩ => show a.val = 0 + 1 * a.val; omega
    conv_lhs => rw [hw]
    rw [View.read_writes_cons_emb, pay1_zero]
  rw [hzero, zero_add]
  unfold contrib scat
  refine Finset.sum_congr rfl fun e _ => ?_
  rw [View.readAt_eq_ld, harg2.read_unread, View.ld_unit_zero (S := S1x1280) hz2,
    View.readAt_eq_ld, harg3.read_unread, View.ld_unit_zero (S := S1280x1) hz2]
  refine congrArg (· * hit a.val (x2 (ix2 e 0))) (congrArg (· * x1 (ix2 0 e)) ?_)
  unfold kernelRun0_A.sl.v14 kernelRun0_A.sl.HS0_1
  exact gathered Variants.none c none i arg1 harg1 arg2 harg2 arg3 harg3 arg4 harg4 arg5 harg5 arg6 harg6 x0 x3 d e

end Cert.KernelIdeal.Body

end
-- ==== Proof.HostIn.lean ====
/-
  What the region finds: each window's block at a grid point, read at an index from the argument arrays.

  The host lays the arguments out before the call: the source and destination index vectors and the weight column
  become a row, a row and a column of 800000 entries, cut into tiles of 1280 (tile t holds edges t·1280 … t·1280+1279);
  the table is transposed, padded with zero rows up to 51200 and kept whole.
-/
import proofs.«429128_j48644799595011_1_alg».proof.Proof.Gen.KernelIdeal.Frame
import proofs.«429128_j48644799595011_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.HostIn

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The four argument arrays as the program is launched with them. -/
abbrev qArg (c : Dev nD) : S50000x64.Idx → EReal := m ((c : Thread nD τ).loc main_arg0)
abbrev wArg (c : Dev nD) : S800000x1.Idx → EReal := m ((c : Thread nD τ).loc main_arg1)
abbrev srcArg (c : Dev nD) : S800000.Idx → BitVec 32 := m ((c : Thread nD τ).loc main_arg2)
abbrev dstArg (c : Dev nD) : S800000.Idx → BitVec 32 := m ((c : Thread nD τ).loc main_arg3)

/-- The four input windows' blocks at grid point t, at their literal types. -/
abbrev srcBlk (c : Dev nD) (t : Fin cfg0.N) : Vec Ideal S1x1280 .i32 := iblk m c 0 t
abbrev wBlk (c : Dev nD) (t : Fin cfg0.N) : Vec Ideal S1x1280 .f32 := iblk m c 1 t
abbrev dstBlk (c : Dev nD) (t : Fin cfg0.N) : Vec Ideal S1280x1 .i32 := iblk m c 2 t
abbrev qBlk (c : Dev nD) (t : Fin cfg0.N) : Vec Ideal S64x51200 .bf16 := iblk m c 3 t

/-- Edge number of entry e of tile t. -/
theorem edge_lt (t : Fin cfg0.N) (e : Fin 1280) : t.val * 1280 + e.val < 800000 := by
  have ht : t.val < 625 := lt_of_lt_of_eq t.isLt (show cfg0.N = 625 from N_0)
  have he := e.isLt
  omega

/-! ## The index maps, decided once over the grid -/

/-- The row windows (source words, weights) sit in row 0 and move one tile per grid point. -/
private theorem idx_src : ∀ t : Fin cfg0.N, win0_0.index t (0 : Fin 2) = 0 ∧ win0_0.index t (1 : Fin 2) = t.val :=
  (by decide +kernel : ∀ t : Fin grid0.N, _)
private theorem idx_w : ∀ t : Fin cfg0.N, win0_1.index t (0 : Fin 2) = 0 ∧ win0_1.index t (1 : Fin 2) = t.val :=
  (by decide +kernel : ∀ t : Fin grid0.N, _)
/-- The column window (destination words) sits in column 0 and moves one tile per grid point. -/
private theorem idx_dst : ∀ t : Fin cfg0.N, win0_2.index t (0 : Fin 2) = t.val ∧ win0_2.index t (1 : Fin 2) = 0 :=
  (by decide +kernel : ∀ t : Fin grid0.N, _)
/-- The table's window never moves. -/
private theorem idx_q : ∀ t : Fin cfg0.N, win0_3.index t (0 : Fin 2) = 0 ∧ win0_3.index t (1 : Fin 2) = 0 :=
  (by decide +kernel : ∀ t : Fin grid0.N, _)

/-! ## The arrays the region finds -/

private theorem V3_eq (c : Dev nD) : (V m c main_v3 : S1x800000.Idx → BitVec 32)
    = shapeCast S1x800000 (srcArg m c) shapeCasts_S800000_S1x800000 := by
  dsimp only [Gen.V, Gen.V0]
  simp only [Gen.hostOps0, Gen.hostOps0_1, Gen.hostOps0_2, List.flatten_cons, List.flatten_nil, List.append_nil, List.cons_append, List.nil_append]
  after_results
  rfl

private theorem V4_eq (c : Dev nD) : (V m c main_v4 : S1x800000.Idx → EReal)
    = shapeCast S1x800000 (wArg m c) shapeCasts_S800000x1_S1x800000 := by
  dsimp only [Gen.V, Gen.V0]
  simp only [Gen.hostOps0, Gen.hostOps0_1, Gen.hostOps0_2, List.flatten_cons, List.flatten_nil, List.append_nil, List.cons_append, List.nil_append]
  after_results
  rfl

private theorem V5_eq (c : Dev nD) : (V m c main_v5 : S800000x1.Idx → BitVec 32)
    = shapeCast S800000x1 (dstArg m c) shapeCasts_S800000_S800000x1 := by
  dsimp only [Gen.V, Gen.V0]
  simp only [Gen.hostOps0, Gen.hostOps0_1, Gen.hostOps0_2, List.flatten_cons, List.flatten_nil, List.append_nil, List.cons_append, List.nil_append]
  after_results
  rfl

/-- The table as the host lays it out: transposed, padded on the node axis with the converted integer zero, narrowed. -/
private abbrev qHost (q : S50000x64.Idx → EReal) : S64x51200.Idx → EReal :=
  truncf (F := Ideal) .bf16
    (pad S64x51200 ![0, 0] ![0, 1200] ![0, 0] (transpose S64x50000 [1, 0] q transposes_S50000x64_S64x50000_1_0)
      (sitofp (F := Ideal) .f32 (constantI S_ 32 0#32)) pads_S64x50000_S64x51200_000_012000 h_S_)
    bitsLt_bf16_f32

private theorem V2_eq (c : Dev nD) : (V m c main_v2 : S64x51200.Idx → EReal) = qHost (qArg m c) := by
  dsimp only [Gen.V, Gen.V0]
  simp only [Gen.hostOps0, Gen.hostOps0_1, Gen.hostOps0_2, List.flatten_cons, List.flatten_nil, List.append_nil, List.cons_append, List.nil_append]
  after_results
  rfl

/-! ## The host terms read at an index -/

/-- The weight column laid out as a row: entry (0, i) of the row is entry (i, 0) of the column. -/
private theorem col_as_row_apply {α : Type} (x : S800000x1.Idx → α) (i : Fin 800000) :
    shapeCast S1x800000 x shapeCasts_S800000x1_S1x800000 (ix2 0 i) = x (ix2 i 0) :=
  shapeCast_apply x _ _ _ (by
    rw [Shape.rowMajor_val_two, Shape.rowMajor_val_two]
    show i.val * 1 + 0 = 0 * 800000 + i.val
    omega)

/-- A vector laid out as a column: entry (i, 0) of the column is entry i of the vector. -/
private theorem vec_as_col_apply {α : Type} (x : S800000.Idx → α) (i : Fin 800000) :
    shapeCast S800000x1 x shapeCasts_S800000_S800000x1 (ix2 i 0) = x (ix1 i) :=
  shapeCast_apply x _ _ _ (by
    rw [Shape.rowMajor_val_one, Shape.rowMajor_val_two]
    show i.val = i.val * 1 + 0
    omega)

/-- The host's table at (d, a): the table's row a, column d, for a a row of the table; the padding value, zero, past it. -/
private theorem qHost_apply (q : S50000x64.Idx → EReal) (d : Fin 64) (a : Fin 51200) :
    qHost q (ix2 d a) = qpad q a.val d := by
  show pad S64x51200 ![0, 0] ![0, 1200] ![0, 0] (transpose S64x50000 [1, 0] q transposes_S50000x64_S64x50000_1_0)
      (sitofp (F := Ideal) .f32 (constantI S_ 32 0#32)) pads_S64x50000_S64x51200_000_012000 h_S_ (ix2 d a) = _
  unfold qpad
  by_cases h : a.val < 50000
  · rw [dif_pos h]
    refine (pad_apply_of_inside _ _ _ _ _ _ _ (ix2 d a) (ix2 d (⟨a.val, h⟩ : Fin 50000)) (fun ax => ?_)).trans ?_
    · match ax with
      | ⟨0, _⟩ => show d.val = 0 + d.val * (0 + 1); omega
      | ⟨1, _⟩ => show a.val = 0 + a.val * (0 + 1); omega
    · exact transpose_ix2_apply q transposes_S50000x64_S64x50000_1_0 d ⟨a.val, h⟩
  · rw [dif_neg h]
    refine (pad_apply_of_not_inside _ _ _ _ _ _ _ (ix2 d a) (1 : Fin 2) (fun hin => h ?_)).trans ?_
    · have h2 : (a.val - 0) / (0 + 1) < 50000 := hin.2.2
      omega
    · exact sitofp_zero (φ := .f32)

/-! ## Each window's block at a grid point -/

theorem srcBlk_apply (c : Dev nD) (t : Fin cfg0.N) (e : Fin 1280) :
    srcBlk m c t (ix2 0 e) = srcArg m c (ix1 ⟨t.val * 1280 + e.val, edge_lt t e⟩) := by
  have hread : srcBlk m c t (ix2 0 e) = V m c main_v3 (ix2 0 ⟨t.val * 1280 + e.val, edge_lt t e⟩) := by
    show V m c main_v3 (((cfg0.win 0).blk t).view.emb (ix2 0 e)) = V m c main_v3 _
    refine congrArg _ ?_
    obtain ⟨e0, e1⟩ := idx_src t
    funext a; apply Fin.ext
    match a with
    | ⟨0, _⟩ => show win0_0.index t (0 : Fin 2) * 1 + 1 * 0 = 0; omega
    | ⟨1, _⟩ => show win0_0.index t (1 : Fin 2) * 1280 + 1 * e.val = t.val * 1280 + e.val; omega
  rw [hread, V3_eq]
  exact shapeCast_a_1a_apply (srcArg m c) shapeCasts_S800000_S1x800000 0 ⟨t.val * 1280 + e.val, edge_lt t e⟩

theorem wBlk_apply (c : Dev nD) (t : Fin cfg0.N) (e : Fin 1280) :
    wBlk m c t (ix2 0 e) = wArg m c (ix2 ⟨t.val * 1280 + e.val, edge_lt t e⟩ 0) := by
  have hread : wBlk m c t (ix2 0 e) = V m c main_v4 (ix2 0 ⟨t.val * 1280 + e.val, edge_lt t e⟩) := by
    show V m c main_v4 (((cfg0.win 1).blk t).view.emb (ix2 0 e)) = V m c main_v4 _
    refine congrArg _ ?_
    obtain ⟨e0, e1⟩ := idx_w t
    funext a; apply Fin.ext
    match a with
    | ⟨0, _⟩ => show win0_1.index t (0 : Fin 2) * 1 + 1 * 0 = 0; omega
    | ⟨1, _⟩ => show win0_1.index t (1 : Fin 2) * 1280 + 1 * e.val = t.val * 1280 + e.val; omega
  rw [hread, V4_eq]
  exact col_as_row_apply (wArg m c) ⟨t.val * 1280 + e.val, edge_lt t e⟩

theorem dstBlk_apply (c : Dev nD) (t : Fin cfg0.N) (e : Fin 1280) :
    dstBlk m c t (ix2 e 0) = dstArg m c (ix1 ⟨t.val * 1280 + e.val, edge_lt t e⟩) := by
  have hread : dstBlk m c t (ix2 e 0) = V m c main_v5 (ix2 ⟨t.val * 1280 + e.val, edge_lt t e⟩ 0) := by
    show V m c main_v5 (((cfg0.win 2).blk t).view.emb (ix2 e 0)) = V m c main_v5 _
    refine congrArg _ ?_
    obtain ⟨e0, e1⟩ := idx_dst t
    funext a; apply Fin.ext
    match a with
    | ⟨0, _⟩ => show win0_2.index t (0 : Fin 2) * 1280 + 1 * e.val = t.val * 1280 + e.val; omega
    | ⟨1, _⟩ => show win0_2.index t (1 : Fin 2) * 1 + 1 * 0 = 0; omega
  rw [hread, V5_eq]
  exact vec_as_col_apply (dstArg m c) ⟨t.val * 1280 + e.val, edge_lt t e⟩

/-- The table's window is the whole padded, transposed table at every point. -/
theorem qBlk_apply (c : Dev nD) (t : Fin cfg0.N) (d : Fin 64) (a : Fin 51200) :
    qBlk m c t (ix2 d a) = qpad (qArg m c) a.val d := by
  have hread : qBlk m c t (ix2 d a) = V m c main_v2 (ix2 d a) := by
    show V m c main_v2 (((cfg0.win 3).blk t).view.emb (ix2 d a)) = V m c main_v2 _
    refine congrArg _ ?_
    obtain ⟨e0, e1⟩ := idx_q t
    funext ax; apply Fin.ext
    match ax with
    | ⟨0, _⟩ => show win0_3.index t (0 : Fin 2) * 64 + 1 * d.val = d.val; omega
    | ⟨1, _⟩ => show win0_3.index t (1 : Fin 2) * 51200 + 1 * a.val = a.val; omega
  rw [hread, V2_eq]
  exact qHost_apply (qArg m c) d a

end Cert.KernelIdeal.HostIn

end
-- ==== Proof.Grid.lean ====
/-
  The output window after each grid point: the sum of the tiles so far.

  Point 0 zeroes the window and adds tile 0; every later point adds its own tile to what the point before left. So after
  point n the window holds, entry by entry, the sum of the contributions of tiles 0 … n.
-/
import proofs.«429128_j48644799595011_1_alg».proof.Proof.Body
import proofs.«429128_j48644799595011_1_alg».proof.Proof.HostIn

set_option maxRecDepth 16384

noncomputable section

open scoped BigOperators

namespace Cert.KernelIdeal.Grid

open Idealize.ShloMosaic Idealize.ShloMosaic.TcCoe Idealize.ShloMosaic.ValueIdx Idealize.SL.Sem
open Cert.KernelIdeal Cert.KernelIdeal.Gen Cert.Spec Cert.Tile Cert.KernelIdeal.HostIn

variable (m : (ℓ : Loc nD τ sig) → Buf (Elt Ideal) ℓ)

/-- Tile t's contribution to output entry (d, a). -/
def tileAt (c : Dev nD) (t : Fin cfg0.N) (d : Fin 64) (a : ℕ) : EReal :=
  scat (qBlk m c t) (srcBlk m c t) (wBlk m c t) (dstBlk m c t) d a

/-- The contributions of the tiles before n. -/
def upTo (c : Dev nD) (n : ℕ) (d : Fin 64) (a : ℕ) : EReal :=
  ∑ t ∈ Finset.range n, if h : t < cfg0.N then tileAt m c ⟨t, h⟩ d a else 0

theorem outsAt_apply (c : Dev nD) : ∀ (n : ℕ) (hn : n < cfg0.N) (d : Fin 64) (a : Fin 51200),
    (outsAt0 m c n hn : Vec Ideal S64x51200 .f32) (ix2 d a) = upTo m c (n + 1) d a.val
  | 0, hn, d, a => by
    have h := outsAt0_A m c ⟨0, hn⟩ (Nat.zero_mod _)
    rw [show outsAt0 m c 0 hn = _ from h, Body.out0_A_apply]
    unfold upTo
    rw [Finset.sum_range_one, dif_pos hn]
    rfl
  | n + 1, hn, d, a => by
    have hN : n + 1 < 625 := lt_of_lt_of_eq hn N_0
    have h0 : ¬ (n + 1) % 625 = 0 := by omega
    have h := outsAt0_B m c ⟨n + 1, hn⟩ h0
    rw [show outsAt0 m c (n + 1) hn = _ from h, Body.out0_B_apply]
    rw [show (outsAt0 m c ((⟨n + 1, hn⟩ : Fin cfg0.N).val - 1) (Nat.lt_of_le_of_lt (Nat.sub_le _ _) (⟨n + 1, hn⟩ : Fin cfg0.N).isLt)
          : Vec Ideal S64x51200 .f32) (ix2 d a)
        = (outsAt0 m c n (Nat.lt_of_succ_lt hn) : Vec Ideal S64x51200 .f32) (ix2 d a) from rfl]
    rw [outsAt_apply c n (Nat.lt_of_succ_lt hn) d a]
    unfold upTo
    rw [Finset.sum_range_succ (n := n + 1), dif_pos hn]
    rfl

end Cert.KernelIdeal.Grid

end
-- ==== Proof.Tail.lean ====
/-
  From the output window's last contents to the program's result.

  The output window is the whole [64, 51200] array, one block for every grid point, written back once, after the last
  point; the host then keeps the first 50000 columns and transposes.
-/
import proofs.«429128_j48644799595011_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem last_lt : 624 < cfg0.N := by rw [show cfg0.N = 625 from N_0]; omega

/-- The output window's contents after the last grid point, at its literal type. -/
abbrev lastOut (c : Dev nD) : Vec Ideal S64x51200 .f32 := outsAt0 m c 624 last_lt

/-- The output window's block index is (0, 0) at every point. -/
private theorem index_zero (t : Fin cfg0.N) (a : Fin win0_4.shape.rank) : win0_4.index t a = 0 := by
  show cc0_transform_4 (grid0.coords t) a = 0
  match a with
  | ⟨0, _⟩ => rfl
  | ⟨1, _⟩ => rfl

/-- So its block starts at element offset (0, 0). -/
private theorem off_zero (t : Fin cfg0.N) :
    (fun a => win0_4.index t a * main_v6.ty.shape.size a) = fun _ => 0 :=
  funext fun a => by rw [index_zero]; exact Nat.zero_mul _

/-- The block at index (0, 0), of the array's own sizes, read through zero offsets is the array: what a write-back of a
    staging buffer holding `G` writes is the block of the array contents `G`. -/
private theorem cut_eq_read (t : Fin cfg0.N) (G : Vec Ideal S64x51200 .f32) :
    (cfg0.win 4).cut (grid0.coords t) G = ((cfg0.win 4).blk t).view.read (Elt Ideal) G :=
  (Memref.read_access_unit_zero (Elt Ideal) main_v6 (off_zero t)
    (fun a => by rw [congrFun (off_zero t) a]; simp) G).symm

/-- The one write-back, after the last point, writes the window's last contents. -/
private theorem flushed_eq (c : Dev nD) (t : Fin cfg0.N) (hf : (cfg0.win 4).flush t = true) :
    (dats m 0 c).flushed 4 t = ((cfg0.win 4).blk t).view.read (Elt Ideal) (lastOut m c) := by
  have hN : cfg0.N = 625 := N_0
  have h624 : t.val = 624 := by have := (flush0_4 t).mp hf; have := t.isLt; omega
  obtain rfl : t = ⟨624, last_lt⟩ := Fin.ext h624
  show (cfg0.win 4).cut (grid0.coords _) ((dats m 0 c).after 4 _) = _
  rw [after0_4]
  exact cut_eq_read _ _

/-- Every index of the array lies in the window's one block, whatever the point: on each axis the block runs from
    offset 0 over the array's whole extent. -/
private theorem mem_blk (t : Fin cfg0.N) (i : S64x51200.Idx) : i ∈ ((cfg0.win 4).blk t).view.set := by
  show i ∈ ((View.whole main_v6).slice (win0_4.rect t)).set
  rw [View.set_slice_whole, Rect.mem_set_unit]
  intro a
  show win0_4.index t a * win0_4.size a ≤ (i a : Nat)
    ∧ (i a : Nat) < win0_4.index t a * win0_4.size a + win0_4.xsize (grid0.coords t) a
  rw [index_zero, Nat.zero_mul, Nat.zero_add]
  exact ⟨Nat.zero_le _, (i a).isLt⟩

/-- So the array ends holding the window's last contents: the last point's write-back covers it. -/
private theorem arr_final (c : Dev nD) : (dats m 0 c).arrAt 4 cfg0.N = lastOut m c :=
  (dats m 0 c).arrAt_eq_of_cover 4 (lastOut m c) (flushed_eq m c) fun i =>
    ⟨⟨624, last_lt⟩, (flush0_4 _).mpr rfl, mem_blk _ i⟩

/-- The program's result at (n, d) is the output window's last contents at (d, n). -/
theorem result_apply (c : Dev nD) (n : Fin 50000) (d : Fin 64) :
    (Pipeline.afterTail₀ cfgs (dats m) 0 (V0 m) [hostOps1] c main_v8 : S50000x64.Idx → EReal) (ix2 n d)
      = lastOut m c (ix2 d ⟨n.val, by have := n.isLt; omega⟩) := by
  unfold Pipeline.afterTail₀
  show StableHlo.after hostOps1 _ (Proc.devRef .tc main_v8) _ = _
  after_results
  -- the transpose reads (n, d) at (d, n); the slice at offsets (0, 0) reads (d, n) at (d, n)
  refine (transpose_apply [1, 0] _ transposes_S64x50000_S50000x64_1_0 (ix2 n d) (ix2 d n)
    (fun b => match b with | ⟨0, _⟩ => rfl | ⟨1, _⟩ => rfl)).trans ?_
  refine (extractStridedSlice_apply ![0, 0] _ slices_S64x51200_S64x50000_0_0 (ix2 d n)
    (ix2 d ⟨n.val, by have := n.isLt; omega⟩)
    (fun a => match a with
      | ⟨0, _⟩ => by show d.val = 0 + d.val; omega
      | ⟨1, _⟩ => by show n.val = 0 + n.val; omega)).trans ?_
  -- the region leaves the window's array at what the write-backs made of it
  exact congrFun ((Pipeline.withArrays_arr spec0 launch0.win.arr_inj c _ _ 4).trans (arr_final m c)) _

end Cert.KernelIdeal.Tail

end
-- ==== Proof.EdgeSum.lean ====
/-
  The aggregate as the sum, tile by tile, of each edge's weighted message against the mark of its destination.

  A node number n is below 2³¹, so a destination word is n's word exactly when it reads, signed, as n; a message times
  the mark is the message when the edge points at n and zero otherwise; and the 800000 edges are 625 tiles of 1280.
-/
import proofs.«429128_j48644799595011_1_alg».proof.Proof.Tile

noncomputable section

open scoped BigOperators

namespace Cert.EdgeSum

open Idealize.ShloMosaic Idealize.ShloMosaic.ValueIdx Cert.Spec Cert.Tile

/-- The mark of node n on a destination word is the signed test the scatter uses. -/
theorem hit_node (n : Fin 50000) (w : BitVec 32) : hit n.val w = if w.toInt = (n.val : ℤ) then 1 else 0 := by
  have hn := n.isLt
  rw [hit_eq n.val (by omega) w]
  have hw := w.isLt
  have hc := BitVec.toInt_eq_toNat_cond w
  by_cases h : n.val = w.toNat
  · rw [if_pos h, if_pos (by rw [hc]; split <;> omega)]
  · rw [if_neg h, if_neg (by rw [hc]; split <;> omega)]

/-- Edge number E's term for node n, column d: its message against the mark of its destination; zero past the last edge. -/
def edgeTerm (q : (⟨2, ![50000, 64]⟩ : Shape).Idx → EReal) (w : (⟨2, ![800000, 1]⟩ : Shape).Idx → EReal)
    (src dst : (⟨1, ![800000]⟩ : Shape).Idx → BitVec 32) (n : Fin 50000) (d : Fin 64) (E : ℕ) : EReal :=
  if h : E < 800000 then msg q w src ⟨E, h⟩ d * hit n.val (dst (ix1 ⟨E, h⟩)) else 0

theorem agg_eq_sum_tiles (q : (⟨2, ![50000, 64]⟩ : Shape).Idx → EReal) (w : (⟨2, ![800000, 1]⟩ : Shape).Idx → EReal)
    (src dst : (⟨1, ![800000]⟩ : Shape).Idx → BitVec 32) (n : Fin 50000) (d : Fin 64) :
    agg q w src dst n d = ∑ t ∈ Finset.range 625, ∑ e : Fin 1280, edgeTerm q w src dst n d (t * 1280 + e.val) := by
  rw [← Cert.LibSumBlocks.sum_fin_mul 625 1280 (edgeTerm q w src dst n d)]
  unfold agg
  show ∑ e : Fin 800000, _ = ∑ b : Fin 800000, edgeTerm q w src dst n d b.val
  refine Finset.sum_congr rfl fun E _ => ?_
  unfold edgeTerm
  rw [dif_pos E.isLt, hit_node]
  by_cases h : (dst (ix1 E)).toInt = (n.val : ℤ)
  · rw [if_pos h, if_pos h, mul_one]
  · rw [if_neg h, if_neg h, mul_zero]

end Cert.EdgeSum

end
-- ==== Proof.Final.lean ====
/-
  The kernel program's result is the aggregate.

  After the last grid point the output window holds the sum of all 625 tiles' contributions; a tile's contribution to
  entry (d, n) is the sum over its 1280 edges of (table row src[e], column d) · weight[e] against the mark of dst[e] on n
  — the gather loop's sum having picked the one row the source word names —; the host keeps the node columns and
  transposes. Summed tile by tile that is the aggregate of the four arguments.
-/
import proofs.«429128_j48644799595011_1_alg».proof.Proof.Grid
import proofs.«429128_j48644799595011_1_alg».proof.Proof.Tail
import proofs.«429128_j48644799595011_1_alg».proof.Proof.EdgeSum

set_option maxRecDepth 16384

noncomputable section

open scoped BigOperators

namespace Cert.KernelIdeal.Final

open Idealize.ShloMosaic Idealize.ShloMosaic.TcCoe Idealize.ShloMosaic.ValueIdx Idealize.SL.Sem
open Cert.KernelIdeal Cert.KernelIdeal.Gen Cert.Spec Cert.Tile Cert.EdgeSum Cert.KernelIdeal.HostIn Cert.KernelIdeal.Grid

variable (m : (ℓ : Loc nD τ sig) → Buf (Elt Ideal) ℓ)

/-- A row of the table's window by its number is the argument table's row, zero past its end. -/
theorem rowAt_qBlk (c : Dev nD) (t : Fin cfg0.N) (d : Fin 64) (a : ℕ) :
    rowAt (qBlk m c t) d a = qpad (qArg m c) a d := by
  unfold rowAt
  by_cases h : a < 51200
  · rw [dif_pos h, qBlk_apply m c t d ⟨a, h⟩]
  · rw [dif_neg h]
    unfold qpad
    rw [dif_neg (by omega)]

/-- One tile's contribution, edge by edge. -/
theorem tileAt_eq (c : Dev nD) (t : Fin cfg0.N) (n : Fin 50000) (d : Fin 64) :
    tileAt m c t d n.val
      = ∑ e : Fin 1280, edgeTerm (qArg m c) (wArg m c) (srcArg m c) (dstArg m c) n d (t.val * 1280 + e.val) := by
  unfold tileAt scat
  refine Finset.sum_congr rfl fun e _ => ?_
  rw [gath_eq, rowAt_qBlk, srcBlk_apply, wBlk_apply, dstBlk_apply]
  unfold edgeTerm
  rw [dif_pos (edge_lt t e)]
  rfl

/-- The result buffer after the run's tail is the aggregate of the launch contents of the four arguments. -/
theorem kernel_value (c : Dev nD) :
    (Pipeline.afterTail₀ cfgs (dats m) 0 (V0 m) [hostOps1] c main_v8 : S50000x64.Idx → EReal)
      = aggArr (qArg m c) (wArg m c) (srcArg m c) (dstArg m c) := by
  funext j
  obtain ⟨n, d, rfl⟩ : ∃ (n : Fin 50000) (d : Fin 64), j = ix2 n d := ⟨j 0, j 1, eq_ix2 j⟩
  rw [Tail.result_apply]
  show (outsAt0 m c 624 Tail.last_lt : Vec Ideal S64x51200 .f32) (ix2 d ⟨n.val, _⟩) = agg _ _ _ _ n d
  rw [outsAt_apply m c 624 Tail.last_lt d ⟨n.val, by have := n.isLt; omega⟩, agg_eq_sum_tiles]
  unfold upTo
  refine Finset.sum_congr rfl fun t ht => ?_
  have ht' : t < cfg0.N := by rw [show cfg0.N = 625 from N_0]; exact Finset.mem_range.mp ht
  rw [dif_pos ht']
  exact tileAt_eq m c ⟨t, ht'⟩ n d

end Cert.KernelIdeal.Final

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.RefValue.lean ====
/-
  The reference's result, read at an index, and the index range the precondition states.
-/
import proofs.«429128_j48644799595011_1_alg».proof.Proof.Gen.ReferenceIdeal.Read
import proofs.«429128_j48644799595011_1_alg».proof.Pre_finite_inputs
import proofs.«429128_j48644799595011_1_alg».proof.Proof.Gen.Pre_finite_inputs
import proofs.«429128_j48644799595011_1_alg».proof.Proof.Spec
import proofs.«429128_j48644799595011_1_alg».proof.Proof.LibGatherRow
import proofs.«429128_j48644799595011_1_alg».proof.Proof.LibScatterRows
import Idealize.ShloMosaic.Lib.ValueIdx
import Idealize.ShloMosaic.Lib.ReduceAll
import Idealize.ShloMosaic.Lib.StableHlo.Predicate
import Idealize.ShloMosaic.PureOps.Ideal.Laws

noncomputable section

open scoped BigOperators

namespace Cert.RefValue

open Idealize.ShloMosaic Idealize.ShloMosaic.ValueIdx Cert.Spec

/-- Every source index is a row number of the table: what the precondition's two integer conjuncts say. -/
def SrcInRange (src : (⟨1, ![800000]⟩ : Shape).Idx → BitVec 32) : Prop :=
  ∀ e : Fin 800000, 0 ≤ (src (ix1 e)).toInt ∧ (src (ix1 e)).toInt < 50000

/-- The precondition holds only of source indices in range. -/
theorem srcInRange_of_pre [Cert.Pre_finite_inputs.Facts]
    (x0 : FVec Ideal Cert.Pre_finite_inputs.S50000x64 .f32) (x1 : FVec Ideal Cert.Pre_finite_inputs.S800000x1 .f32)
    (x2 x3 : IVec Cert.Pre_finite_inputs.S800000 32)
    (h : Cert.Pre_finite_inputs.fn (F := Ideal) x0 x1 x2 x3 = (fun _ => 1#1)) : SrcInRange x2 := by
  haveI : Subsingleton Cert.Pre_finite_inputs.S_.Idx := ⟨fun a b => funext fun d => d.elim0⟩
  -- the predicate's one element is the conjunction of the four reductions
  have h0 := congrFun h ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  intro e
  -- each reduction by `and` that is 1 had a 1 at edge `e`
  have hge := Host.reduce_andi_all _ _ _ _ _ h11 (ix1 e)
  have hlt := Host.reduce_andi_all _ _ _ _ _ h15 (ix1 e)
  -- the two comparisons are against the broadcast constants 0 and 50000
  have hge' : IntOp.cmpi .sge (x2 (ix1 e)) 0#32 = 1#1 := hge
  have hlt' : IntOp.cmpi .slt (x2 (ix1 e)) 50000#32 = 1#1 := hlt
  have h1 := IntOp.cmpi_sge.1 hge'
  have h2 := IntOp.cmpi_slt.1 hlt'
  rw [show (0#32 : BitVec 32).toInt = 0 from by decide] at h1
  rw [show (50000#32 : BitVec 32).toInt = 50000 from by decide] at h2
  exact ⟨h1, h2⟩

section Auxiliary

open Cert.ReferenceIdeal Cert.ReferenceIdeal.Read

/-- The destination column at row `k` reads the destination vector at `k`. -/
private theorem idx_v10 (k : Fin 800000) (z : Fin 1) : idx_main_v10 (ix2 k z) = ix1 k := by
  funext a; match a with | ⟨0, _⟩ => rfl

/-- The start-index column at row `k` reads the wrapped source vector at `k`. -/
private theorem idx_v5 (k : Fin 800000) (z : Fin 1) : idx_main_v5 (ix2 k z) = ix1 k := by
  funext a; match a with | ⟨0, _⟩ => rfl

/-- The weight broadcast along the columns reads, at `(k, d)`, the weight of edge `k`. -/
private theorem idx_v7 (k : Fin 800000) (d : Fin 64) : idx_main_v7 (ix2 k d) = ix2 k (0 : Fin 1) := by
  funext a; match a with | ⟨0, _⟩ => rfl | ⟨1, _⟩ => rfl

/-- A word whose signed value lies in `[0, 50000)` has that value unsigned too. -/
private theorem toNat_of_range {v : BitVec 32} (h0 : 0 ≤ v.toInt) (h1 : v.toInt < 50000) :
    v.toInt = (v.toNat : ℤ) ∧ v.toNat < 50000 := by
  have hc := BitVec.toInt_eq_toNat_cond v
  have hl := v.isLt
  split at hc <;> omega

/-- A source index in range is not wrapped: the start word of edge `k` is the source index itself. -/
private theorem start_word [Cert.ReferenceIdeal.Facts] (x2 : (⟨S800000, .i32⟩ : BufTy).Contents (Elt Ideal))
    (hsrc : SrcInRange x2) (k : Fin 800000) (z : Fin 1) :
    val_main_v5 (F := Ideal) x2 (ix2 k z) = x2 (ix1 k) := by
  rw [val_main_v5_apply, idx_v5, val_main_v4_apply, val_main_v1_apply]
  have hc : IntOp.cmpi .slt (x2 (ix1 k)) (val_main_v0 (F := Ideal) (ix1 k)) = 0#1 := by
    refine eq_zero_of_ne_one fun hc => ?_
    have hlt : (x2 (ix1 k)).toInt < (0#32 : BitVec 32).toInt := IntOp.cmpi_slt.1 hc
    rw [show (0#32 : BitVec 32).toInt = 0 from by decide] at hlt
    exact absurd (hsrc k).1 (by omega)
  rw [hc, select_zero]

/-- At the extended reals the accumulating scatter is the exact one: each element plus the sum of the updates landing on it. -/
private theorem scatterAdd_ideal {s si u : Shape} {φ : FTy} {w : Nat} (d : ScatterDims s si u) (x : FVec Ideal s φ)
    (idx : IVec si w) (upd : FVec Ideal u φ) : Host.scatterAdd d x idx upd = Ideal.hostScatterAdd d x idx upd := rfl

/-- The aggregate array read at `(n, d)`: the sum, over the edges whose destination is `n`, of the table's row at the
    edge's source index, column `d`, times the edge's weight. -/
private theorem aggArr_apply (q : (⟨2, ![50000, 64]⟩ : Shape).Idx → EReal) (w : (⟨2, ![800000, 1]⟩ : Shape).Idx → EReal)
    (src dst : (⟨1, ![800000]⟩ : Shape).Idx → BitVec 32) (n : Fin 50000) (d : Fin 64) :
    aggArr q w src dst (ix2 n d) = ∑ e : Fin 800000,
      if (dst (ix1 e)).toInt = (n.val : ℤ) then qpad q (src (ix1 e)).toNat d * w (ix2 e 0) else 0 := rfl

end Auxiliary

/-- With the source indices in range the reference's result is the aggregate: a non-negative index is not wrapped,
    an index below the row count is not clamped, and the scatter-add into zeros sums, per node, the messages of the
    edges whose destination it is. -/
theorem ref_eq_agg [Cert.ReferenceIdeal.Facts]
    (x0 : (⟨Cert.ReferenceIdeal.S50000x64, .f32⟩ : BufTy).Contents (Elt Ideal))
    (x1 : (⟨Cert.ReferenceIdeal.S800000x1, .f32⟩ : BufTy).Contents (Elt Ideal))
    (x2 x3 : (⟨Cert.ReferenceIdeal.S800000, .i32⟩ : BufTy).Contents (Elt Ideal))
    (hsrc : SrcInRange x2) :
    Cert.ReferenceIdeal.Read.val_main_v11 (F := Ideal) x0 x1 x2 x3 = aggArr x0 x1 x2 x3 := by
  funext i
  obtain ⟨n, d, rfl⟩ : ∃ n d, i = ix2 n d := ⟨i 0, i 1, eq_ix2 i⟩
  -- the scatter-add read at (n, d): the operand there plus the updates of column d whose destination is n
  unfold Cert.ReferenceIdeal.Read.val_main_v11
  rw [scatterAdd_ideal]
  rw [Cert.LibScatterRows.scatterAdd_rows_apply _ rfl rfl rfl rfl]
  -- the operand is the zero array
  rw [Cert.ReferenceIdeal.Read.val_main_v9_apply, Cert.ReferenceIdeal.Read.val_main_cst_apply, Ideal.ofBits_def,
    Ideal.ofBits_zero_f32, zero_add, aggArr_apply]
  refine Finset.sum_congr rfl fun k _ => ?_
  rw [Cert.ReferenceIdeal.Read.val_main_v10_apply, idx_v10]
  refine if_congr Iff.rfl ?_ rfl
  -- the update of edge k in column d: the gathered table entry times the edge's weight
  rw [Cert.ReferenceIdeal.Read.val_main_v8_apply, Ideal.mulf_def, Cert.ReferenceIdeal.Read.val_main_v7_apply, idx_v7]
  congr 1
  -- the gather reads the table at the clamped start word, which is the source index itself
  unfold Cert.ReferenceIdeal.Read.val_main_v6
  rw [Cert.LibGatherRow.gather_row2 (by decide : 0 < 50000) _ rfl rfl rfl rfl rfl, start_word x2 hsrc k]
  obtain ⟨hi, hlt⟩ := toNat_of_range (hsrc k).1 (hsrc k).2
  unfold qpad
  rw [dif_pos hlt]
  -- an index below the row count is not clamped
  refine congrArg (fun r => x0 (ix2 r d)) (Fin.ext ?_)
  rw [Cert.LibGatherRow.clampRow_val]
  show min (x2 (ix1 k)).toInt.toNat (50000 - 1) = (x2 (ix1 k)).toNat
  omega

end Cert.RefValue

end
-- ==== Proof.lean ====
/-
  Message passing over a graph: for every node, the sum over the edges that point at it of the source node's feature
  row scaled by the edge's weight. The kernel computes it with one-hot matrix products, tile of 1280 edges by tile: a
  gather loop multiplies the (padded, transposed) feature table, block of 1280 rows by block, with the one-hot matrix
  "row number = source index", and a scatter loop multiplies the weighted messages with the one-hot matrix "destination
  index = node number", block of 1280 nodes by block, accumulating into an output window that is carried across the
  625 grid points. The reference gathers the rows and scatter-adds them.

  On the extended reals a product with a one-hot row is the one entry it marks (0 · x = 0, 1 · x = x, and sums of
  zeros vanish — no finiteness is needed), so both programs compute `Cert.Spec.aggArr` of the four arguments: the kernel
  for every input (Proof/Final.lean), the reference for source indices inside the table (Proof/RefValue.lean) — where the
  reference neither wraps a negative index nor clamps one past the end, which is what the precondition's range
  conjuncts state and all the proof uses of the precondition.
-/
import proofs.«429128_j48644799595011_1_alg».proof.Defs
import proofs.«429128_j48644799595011_1_alg».proof.Proof.Gen.Kernel
import proofs.«429128_j48644799595011_1_alg».proof.Proof.Gen.Kernel.Skeleton
import proofs.«429128_j48644799595011_1_alg».proof.Proof.Gen.Kernel.Loops
import proofs.«429128_j48644799595011_1_alg».proof.Proof.Gen.Kernel.Launch
import proofs.«429128_j48644799595011_1_alg».proof.Proof.Gen.Kernel.Points
import proofs.«429128_j48644799595011_1_alg».proof.Proof.Gen.Kernel.Frame
import proofs.«429128_j48644799595011_1_alg».proof.Proof.Gen.KernelIdeal
import proofs.«429128_j48644799595011_1_alg».proof.Proof.Gen.KernelIdeal.Skeleton
import proofs.«429128_j48644799595011_1_alg».proof.Proof.Gen.KernelIdeal.Loops
import proofs.«429128_j48644799595011_1_alg».proof.Proof.Gen.KernelIdeal.Launch
import proofs.«429128_j48644799595011_1_alg».proof.Proof.Gen.KernelIdeal.Points
import proofs.«429128_j48644799595011_1_alg».proof.Proof.Gen.KernelIdeal.Frame
import proofs.«429128_j48644799595011_1_alg».proof.Proof.Gen.ReferenceIdeal
import proofs.«429128_j48644799595011_1_alg».proof.Proof.Gen.Pre_finite_inputs
import proofs.«429128_j48644799595011_1_alg».proof.Proof.Gen.ReferenceIdeal.Run
import proofs.«429128_j48644799595011_1_alg».proof.Proof.Gen.ReferenceIdeal.Read
import proofs.«429128_j48644799595011_1_alg».proof.Proof.Final
import proofs.«429128_j48644799595011_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the aggregate of the (agreeing) arguments in their result buffers. -/
theorem algebraic : Cert.algebraic_KernelIdeal_ReferenceIdeal := by
  intro m ρ m' ρ' hpre hagree
  refine ⟨fun c => Cert.Spec.aggArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_main m ρ)
    exact ⟨((h c).2 Cert.KernelIdeal.main_v8 (Pipeline.mem_restRefs_of Cert.KernelIdeal.main_v8 (by decide) (by decide))).trans
        (Cert.KernelIdeal.Final.kernel_value m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · refine (θ_run Cert.ReferenceIdeal.defs _ _).mono (fun r h c => ⟨?_, (h c).2⟩)
      (Cert.ReferenceIdeal.Value.run (F := Ideal) m' ρ')
    have hsrc := Cert.RefValue.srcInRange_of_pre _ _ _ _ (hpre c)
    rw [(h c).1, Cert.ReferenceIdeal.Read.val_main_v11_eq, (hagree c).1, (hagree c).2.1, (hagree c).2.2.1, (hagree c).2.2.2]
    exact Cert.RefValue.ref_eq_agg _ _ _ _ hsrc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
